-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000x64 : Shape := ⟨2, ![640000, 64]⟩
abbrev S64x128 : Shape := ⟨2, ![64, 128]⟩
abbrev S128 : Shape := ⟨1, ![128]⟩
abbrev S128x128 : Shape := ⟨2, ![128, 128]⟩
abbrev S_ : Shape := ⟨0, ![]⟩
abbrev S1x640000 : Shape := ⟨2, ![1, 640000]⟩
abbrev S640000 : Shape := ⟨1, ![640000]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x64 : S_.BroadcastsInDim S640000x64 (![] : Fin 0 → Fin S640000x64.rank)
  reducesTo_S640000x64_S_d0_1 : S640000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  slices_S2x640000_S1x640000_1_0 : S2x640000.Slices ![1, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part2 {F : FTy → Type} [FloatOps F] (main_arg1 : IVec S2x640000 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : IVec S1x640000 32 := (extractStridedSlice S1x640000 ![1, 0] · slices_S2x640000_S1x640000_1_0) main_arg1
  let main_v40 : IVec S640000 32 := shapeCast S640000 main_v39 shapeCasts_S1x640000_S640000
  let main_c_14 : IVec S_ 32 := constantI S_ 32 4294927296#32
  let main_v41 : IVec S640000 32 := broadcastInDim S640000 ![] bcast_S_S640000 main_c_14
  let main_v42 : IVec S640000 1 := cmpi .sge main_v40 main_v41
  let main_v43 : IVec S1x640000 32 := (extractStridedSlice S1x640000 ![1, 0] · slices_S2x640000_S1x640000_1_0) main_arg1
  let main_v44 : IVec S640000 32 := shapeCast S640000 main_v43 shapeCasts_S1x640000_S640000
  let main_c_15 : IVec S_ 32 := constantI S_ 32 40000#32
  let main_v45 : IVec S640000 32 := broadcastInDim S640000 ![] bcast_S_S640000 main_c_15
  let main_v46 : IVec S640000 1 := cmpi .slt main_v44 main_v45
  let main_v47 : IVec S640000 1 := andi main_v42 main_v46
  let main_c_16 : IVec S_ 1 := constantI S_ 1 1#1
  let main_v48 : IVec S_ 1 := (fun x v => Host.reduce IntOp.andi x v reducesTo_S640000_S_d0 h_S_) main_v47 main_c_16
  let main_v49 : IVec S_ 1 := andi main_v38 main_v48
  main_v49

def fn_part1 {F : FTy → Type} [FloatOps F] (main_arg1 : IVec S2x640000 32) (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_v33

def fn {F : FTy → Type} [FloatOps F] (main_arg0 : FVec F S40000x128 .f32) (main_arg1 : IVec S2x640000 32) (main_arg2 : FVec F S640000x64 .f32) (main_arg3 : FVec F S64x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x64 .f32 := Host.absf main_arg2
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_v13 main_v16
-- ==== Kernel.lean ====
abbrev S40000x128 : Shape := ⟨2, ![40000, 128]⟩
abbrev S2x640000 : Shape := ⟨2, ![2, 640000]⟩
abbrev S640000x64 : Shape := ⟨2, ![640000, 64]⟩
abbrev S64x128 : Shape := ⟨2, ![64, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S1x128 : Shape := ⟨2, ![1, 128]⟩
abbrev S8000x128 : Shape := ⟨2, ![8000, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S8000x64 : Shape := ⟨2, ![8000, 64]⟩

abbrev nBuf : Space → Nat
  | .hbm => 45
  | .vmem => 16
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x64, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S1x128, .f32⟩
  | .hbm, ⟨14, _⟩ => ⟨S40000x128, .f32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S1, .i32⟩
  | .hbm, ⟨24, _⟩ => ⟨S_, .i32⟩
  | .hbm, ⟨25, _⟩ => ⟨S640000x1, .i32⟩
  | .hbm, ⟨26, _⟩ => ⟨S640000x1, .i1⟩
  | .hbm, ⟨27, _⟩ => ⟨S1x1, .i32⟩
  | .hbm, ⟨28, _⟩ => ⟨S640000x1, .i32⟩
  | .hbm, ⟨29, _⟩ => ⟨S640000x1, .i1⟩
  | .hbm, ⟨30, _⟩ => ⟨S640000x1, .i1⟩
  | .hbm, ⟨31, _⟩ => ⟨S_, .i1⟩
  | .hbm, ⟨32, _⟩ => ⟨S640000, .i1⟩
  | .hbm, ⟨33, _⟩ => ⟨S640000x128, .f32⟩
  | .hbm, ⟨34, _⟩ => ⟨S640000x128, .i1⟩
  | .hbm, ⟨35, _⟩ => ⟨S_, .f32⟩
  | .hbm, ⟨36, _⟩ => ⟨S640000x128, .f32⟩
  | .hbm, ⟨37, _⟩ => ⟨S640000x128, .f32⟩
  | .hbm, ⟨38, _⟩ => ⟨S1x128, .f32⟩
  | .hbm, ⟨39, _⟩ => ⟨S1x128, .f32⟩
  | .hbm, ⟨40, _⟩ => ⟨S640000x128, .f32⟩
  | .hbm, ⟨41, _⟩ => ⟨S_, .f32⟩
  | .hbm, ⟨42, _⟩ => ⟨S40000x128, .f32⟩
  | .hbm, ⟨43, _⟩ => ⟨S640000x1, .i32⟩
  | .hbm, ⟨44, _⟩ => ⟨S40000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | .local _ .vmem, ⟨6, _⟩ => ⟨S8000x64, .f32⟩
  | .local _ .vmem, ⟨7, _⟩ => ⟨S8000x64, .f32⟩
  | .local _ .vmem, ⟨8, _⟩ => ⟨S8000x128, .f32⟩
  | .local _ .vmem, ⟨9, _⟩ => ⟨S8000x128, .f32⟩
  | .local _ .vmem, ⟨10, _⟩ => ⟨S64x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S8000x128, .f32⟩
  | .local _ .vmem, ⟨15, _⟩ => ⟨S8000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S8000x64_S8000x64_0_0 : ∀ a, (![0, 0] : Fin 2 → Nat) a + S8000x64.size a ≤ S8000x64.size a
  h_S8000x64 : 0 < S8000x64.numel
  inb_S64x128_S64x128_0_0 : ∀ a, (![0, 0] : Fin 2 → Nat) a + S64x128.size a ≤ S64x128.size a
  h_S64x128 : 0 < S64x128.numel
  shapeCasts_S8000x128_S8000x128 : S8000x128.ShapeCasts S8000x128
  bcast_S_S40000x128 : S_.BroadcastsInDim S40000x128 (![] : Fin 0 → Fin S40000x128.rank)
  dot_S8000x128_S128x128_S8000x128_1_0_0_1_n_n_wf : DotDims.WF S8000x128 S128x128 S8000x128 [1] [0] [0] [1] [] []
  gather_S40000x128_S640000x1_S640000x128_1_0_n_n_0_1_1128_wf : GatherDims.WF S40000x128 S640000x1 S640000x128 [1] [0] [] [0] [] 1 ![1, 128]
  dot_S8000x64_S64x128_S8000x128_1_0_0_1_n_n_wf : DotDims.WF S8000x64 S64x128 S8000x128 [1] [0] [0] [1] [] []
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S40000x128.size a
  hwx0_0 : ∀ i : grid0.Coords, EltTy.bits .f32 = 32 ∨ (Rect.block (s := S40000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S40000x128.size a
  hwx0_3 : ∀ i : grid0.Coords, EltTy.bits .f32 = 32 ∨ (Rect.block (s := S40000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S640000x64.size a
  hwx1_0 : ∀ i : grid1.Coords, EltTy.bits .f32 = 32 ∨ (Rect.block (s := S640000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S640000x128.size a
  hwx1_1 : ∀ i : grid1.Coords, EltTy.bits .f32 = 32 ∨ (Rect.block (s := S640000x128) S8000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x128.size a ≤ S640000x128.size a
  hwx1_6 : ∀ i : grid1.Coords, EltTy.bits .f32 = 32 ∨ (Rect.block (s := S640000x128) S8000x128.size (cc1_transform_6 i) (hinb1_6 i)).WholeWords (EltTy.packing .f32)

variable [Facts₀]

def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S8000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000x64 : Shape := ⟨2, ![640000, 64]⟩
abbrev S64x128 : Shape := ⟨2, ![64, 128]⟩
abbrev S128 : Shape := ⟨1, ![128]⟩
abbrev S128x128 : Shape := ⟨2, ![128, 128]⟩
abbrev S640000x128 : Shape := ⟨2, ![640000, 128]⟩
abbrev S1x128 : Shape := ⟨2, ![1, 128]⟩
abbrev S_ : Shape := ⟨0, ![]⟩
abbrev S1x640000 : Shape := ⟨2, ![1, 640000]⟩
abbrev S640000 : Shape := ⟨1, ![640000]⟩
abbrev S640000x1 : Shape := ⟨2, ![640000, 1]⟩

abbrev nBuf : Space → Nat
  | .hbm => 42
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x64, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S640000x128, .f32⟩
  | .hbm, ⟨10, _⟩ => ⟨S1x128, .f32⟩
  | .hbm, ⟨11, _⟩ => ⟨S640000x128, .f32⟩
  | .hbm, ⟨12, _⟩ => ⟨S640000x128, .f32⟩
  | .hbm, ⟨13, _⟩ => ⟨S_, .f32⟩
  | .hbm, ⟨14, _⟩ => ⟨S640000x128, .f32⟩
  | .hbm, ⟨15, _⟩ => ⟨S640000x128, .f32⟩
  | .hbm, ⟨16, _⟩ => ⟨S640000x128, .f32⟩
  | .hbm, ⟨17, _⟩ => ⟨S1x128, .f32⟩
  | .hbm, ⟨18, _⟩ => ⟨S640000x128, .f32⟩
  | .hbm, ⟨19, _⟩ => ⟨S640000x128, .f32⟩
  | .hbm, ⟨20, _⟩ => ⟨S40000x128, .f32⟩
  | .hbm, ⟨21, _⟩ => ⟨S1x128, .f32⟩
  | .hbm, ⟨22, _⟩ => ⟨S40000x128, .f32⟩
  | .hbm, ⟨23, _⟩ => ⟨S40000x128, .f32⟩
  | .hbm, ⟨24, _⟩ => ⟨S1x640000, .i32⟩
  | .hbm, ⟨25, _⟩ => ⟨S640000, .i32⟩
  | .hbm, ⟨26, _⟩ => ⟨S1x640000, .i32⟩
  | .hbm, ⟨27, _⟩ => ⟨S640000, .i32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .f32⟩
  | .hbm, ⟨37, _⟩ => ⟨S640000x128, .f32⟩
  | .hbm, ⟨38, _⟩ => ⟨S_, .f32⟩
  | .hbm, ⟨39, _⟩ => ⟨S40000x128, .f32⟩
  | .hbm, ⟨40, _⟩ => ⟨S640000x1, .i32⟩
  | .hbm, ⟨41, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1x128_S40000x128_0_1 : S1x128.BroadcastsInDim S40000x128 (![0, 1] : Fin 2 → Fin S40000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  dot_S640000x64_S64x128_S640000x128_1_0_0_1_n_n_wf : DotDims.WF S640000x64 S64x128 S640000x128 [1] [0] [0] [1] [] []
  dot_S640000x128_S128x128_S640000x128_1_0_0_1_n_n_wf : DotDims.WF S640000x128 S128x128 S640000x128 [1] [0] [0] [1] [] []
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1

variable [Facts₀]

def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.HostFacts.lean ====
/-
  What the host operations around the two pallas_calls leave in the buffers the calls and the last
  operation read, each as a term over the launch memory `m` (device by device).

  Before the first call: the two index rows are sliced out of `edge_index`, the bias `bl` is laid out as a
  [1, 128] row. Between the calls: the gather of the projected rows (with its index wrap, its range mask and
  its fill) and the two bias rows `b1`, `b2`. After the second call: the zero array and the scatter-add of the
  messages onto the destination rows. A buffer no operation writes keeps what it held.
-/
import proofs.«403626_j46342697124299_3_alg».proof.Proof.Gen.KernelIdeal.Frame
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- no operation of a stretch writes the buffer: each write set is a singleton of another reference -/
local macro "untouched " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Entering the first call -/

theorem V1_arg0 (c : Dev nD) : V1 m ρ c main_arg0 = m ((c : Thread nD τ).loc main_arg0) :=
  StableHlo.after_of_forall_not_mem (b := Proc.devRef .tc main_arg0) _ _ (by untouched hostOps0)
theorem V1_arg7 (c : Dev nD) : V1 m ρ c main_arg7 = m ((c : Thread nD τ).loc main_arg7) :=
  StableHlo.after_of_forall_not_mem (b := Proc.devRef .tc main_arg7) _ _ (by untouched hostOps0)

/-- The bias of the node projection, laid out as a [1, 128] row. -/
theorem V1_v4 (c : Dev nD) : V1 m ρ c main_v4 = shapeCast S1x128 (m ((c : Thread nD τ).loc main_arg8)) shapeCasts_S128_S1x128 := by
  show StableHlo.after hostOps0 (W0 m ρ c) (Proc.devRef .tc main_v4) = _
  dsimp only [hostOps0]
  after_results
  rfl

/-! ## The two index rows -/

/-- Row 0 of `edge_index` as a vector: the destination node of each edge. -/
abbrev rowVec (c : Dev nD) : IVec S640000 32 :=
  shapeCast S640000 (extractStridedSlice S1x640000 ![0, 0] (m ((c : Thread nD τ).loc main_arg1)) slices_S2x640000_S1x640000_0_0) shapeCasts_S1x640000_S640000
/-- Row 1 of `edge_index` as a vector: the source node of each edge. -/
abbrev colVec (c : Dev nD) : IVec S640000 32 :=
  shapeCast S640000 (extractStridedSlice S1x640000 ![1, 0] (m ((c : Thread nD τ).loc main_arg1)) slices_S2x640000_S1x640000_1_0) shapeCasts_S1x640000_S640000

theorem W1_v1 (c : Dev nD) : W1 m ρ c (Proc.devRef .tc main_v1) = rowVec m c := by
  show StableHlo.after hostOps0 (W0 m ρ c) (Proc.devRef .tc main_v1) = _
  dsimp only [hostOps0]
  after_results
  rfl
theorem W1_v3 (c : Dev nD) : W1 m ρ c (Proc.devRef .tc main_v3) = colVec m c := by
  show StableHlo.after hostOps0 (W0 m ρ c) (Proc.devRef .tc main_v3) = _
  dsimp only [hostOps0]
  after_results
  rfl

/-! ## Between the calls: the gather with its wrap, mask and fill -/

/-- The gather's index column: per edge the source row, a negative one wrapped by 40000, as a [640000, 1] array. -/
abbrev takeIdx (col : IVec S640000 32) : IVec S640000x1 32 :=
  broadcastInDim S640000x1 ![0] bcast_S640000_S640000x1_0
    (select (cmpi .slt col (broadcastInDim S640000 ![] bcast_S_S640000 (constantI S_ 32 0#32)))
      (addi col (broadcastInDim S640000 ![] bcast_S_S640000 (constantI S_ 32 40000#32))) col)

/-- What the gather function leaves: the gathered rows where the wrapped index is in [0, 39999], the fill word elsewhere. -/
abbrev takeTerm (h : FVec F S40000x128 .f32) (col : IVec S640000 32) : FVec F S640000x128 .f32 :=
  select (broadcastInDim S640000x128 ![0] bcast_S640000_S640000x128_0
      (Host.reduce IntOp.andi
        (andi (cmpi .sge (takeIdx col) (broadcastInDim S640000x1 ![] bcast_S_S640000x1 (constantI S_ 32 0#32)))
              (cmpi .sle (takeIdx col) (broadcastInDim S640000x1 ![0, 1] bcast_S1x1_S640000x1_0_1 (broadcastInDim S1x1 ![1] bcast_S1_S1x1_1 (constantI S1 32 39999#32)))))
        (constantI S_ 1 1#1) reducesTo_S640000x1_S640000_d1 h_S_))
    (Host.gather gather_S40000x128_S640000x1_S640000x128_1_0_n_n_0_1_1128 h (takeIdx col))
    (broadcastInDim S640000x128 ![] bcast_S_S640000x128 (constant S_ .f32 0x7FC00000#32))

set_option maxHeartbeats 2000000 in
/-- The gather function's result from any contents: `takeTerm` of the projected array and the source row. -/
theorem take_result (W : Valuation τ sig (Elt F)) :
    StableHlo.after hostOps1 W (Proc.devRef .tc main_v6) = takeTerm (W (Proc.devRef .tc main_v5)) (W (Proc.devRef .tc main_v3)) := by
  dsimp only [hostOps1]
  after_results_simp
  simp only [TRef.ofBuf, TRef.toBuf, cast_eq]

/-! ## Entering the second call -/

/-- A launch argument neither call writes and no host operation writes is as launched. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (by untouched hostOps1)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (by untouched hostOps0)
    _ = m ((c : Thread nD τ).loc main_arg2) := rfl
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (by untouched hostOps1)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (by untouched hostOps0)
    _ = m ((c : Thread nD τ).loc main_arg3) := rfl
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (by untouched hostOps1)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (by untouched hostOps0)
    _ = m ((c : Thread nD τ).loc main_arg4) := rfl
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (by untouched hostOps1)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (by untouched hostOps0)
    _ = m ((c : Thread nD τ).loc main_arg5) := rfl
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (by untouched hostOps1)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (by untouched hostOps0)
    _ = m ((c : Thread nD τ).loc main_arg6) := rfl

theorem V4_arg2 (c : Dev nD) : V4 m ρ c main_arg2 = m ((c : Thread nD τ).loc main_arg2) :=
  (StableHlo.after_of_forall_not_mem (b := Proc.devRef .tc main_arg2) _ _ (by untouched hostOps1_1)).trans (W3_arg2 m ρ c)
theorem V4_arg3 (c : Dev nD) : V4 m ρ c main_arg3 = m ((c : Thread nD τ).loc main_arg3) :=
  (StableHlo.after_of_forall_not_mem (b := Proc.devRef .tc main_arg3) _ _ (by untouched hostOps1_1)).trans (W3_arg3 m ρ c)
theorem V4_arg5 (c : Dev nD) : V4 m ρ c main_arg5 = m ((c : Thread nD τ).loc main_arg5) :=
  (StableHlo.after_of_forall_not_mem (b := Proc.devRef .tc main_arg5) _ _ (by untouched hostOps1_1)).trans (W3_arg5 m ρ c)

/-- The first call's output array, as the gather finds it. -/
theorem W2_v5 (c : Dev nD) : W2 m ρ c (Proc.devRef .tc main_v5) = (dat0 (V1 m ρ) c).arrAt 3 cfg0.N := W2_arr m ρ c 3
theorem W2_v3 (c : Dev nD) : W2 m ρ c (Proc.devRef .tc main_v3) = colVec m c :=
  (W2_of_ne m ρ c main_v3 (by decide)).trans (W1_v3 m ρ c)

/-- The gathered rows the second call reads. -/
theorem V4_v6 (c : Dev nD) : V4 m ρ c main_v6 = takeTerm ((dat0 (V1 m ρ) c).arrAt 3 cfg0.N) (colVec m c) :=
  calc V4 m ρ c main_v6
    _ = W3 m ρ c (Proc.devRef .tc main_v6) := StableHlo.after_of_forall_not_mem (b := Proc.devRef .tc main_v6) _ _ (by untouched hostOps1_1)
    _ = takeTerm (W2 m ρ c (Proc.devRef .tc main_v5)) (W2 m ρ c (Proc.devRef .tc main_v3)) := take_result (W2 m ρ c)
    _ = _ := by rw [W2_v5, W2_v3]

/-- The two bias rows of the filter network, each laid out as a [1, 128] row. -/
theorem V4_v7 (c : Dev nD) : V4 m ρ c main_v7 = shapeCast S1x128 (m ((c : Thread nD τ).loc main_arg4)) shapeCasts_S128_S1x128 := by
  show StableHlo.after hostOps1_1 (W3 m ρ c) (Proc.devRef .tc main_v7) = _
  rw [← W3_arg4 m ρ c]
  generalize W3 m ρ c = W
  dsimp only [hostOps1_1]
  after_results
  rfl
theorem V4_v8 (c : Dev nD) : V4 m ρ c main_v8 = shapeCast S1x128 (m ((c : Thread nD τ).loc main_arg6)) shapeCasts_S128_S1x128 := by
  show StableHlo.after hostOps1_1 (W3 m ρ c) (Proc.devRef .tc main_v8) = _
  rw [← W3_arg6 m ρ c]
  generalize W3 m ρ c = W
  dsimp only [hostOps1_1]
  after_results
  rfl

/-! ## After the second call: the scatter-add -/

/-- The destination row, untouched since it was sliced out. -/
theorem W5_v1 (c : Dev nD) : W5 m ρ c (Proc.devRef .tc main_v1) = rowVec m c :=
  calc W5 m ρ c (Proc.devRef .tc main_v1)
    _ = W4 m ρ c (Proc.devRef .tc main_v1) := W5_of_ne m ρ c main_v1 (by decide)
    _ = W3 m ρ c (Proc.devRef .tc main_v1) := StableHlo.after_of_forall_not_mem (b := Proc.devRef .tc main_v1) _ _ (by untouched hostOps1_1)
    _ = W2 m ρ c (Proc.devRef .tc main_v1) := StableHlo.after_of_forall_not_mem (b := Proc.devRef .tc main_v1) _ _ (by untouched hostOps1)
    _ = W1 m ρ c (Proc.devRef .tc main_v1) := W2_of_ne m ρ c main_v1 (by decide)
    _ = rowVec m c := W1_v1 m ρ c
/-- The second call's output array, as the scatter finds it. -/
theorem W5_v9 (c : Dev nD) : W5 m ρ c (Proc.devRef .tc main_v9) = (dat1 (V4 m ρ) c).arrAt 6 cfg1.N := W5_arr m ρ c 6

/-- THE RESULT: the messages scatter-added by destination row onto the zero array. -/
theorem W6_v12 (c : Dev nD) : W6 m ρ c (Proc.devRef .tc main_v12)
    = Host.scatterAdd scatter_S40000x128_S640000x1_S640000x128_1_0_0_1
        (broadcastInDim S40000x128 ![] bcast_S_S40000x128 (constant S_ .f32 0x00000000#32))
        (broadcastInDim S640000x1 ![0] bcast_S640000_S640000x1_0 (rowVec m c))
        ((dat1 (V4 m ρ) c).arrAt 6 cfg1.N) := by
  show StableHlo.after hostOps2 (W5 m ρ c) (Proc.devRef .tc main_v12) = _
  rw [← W5_v1 m ρ c, ← W5_v9 m ρ c]
  generalize W5 m ρ c = W
  dsimp only [hostOps2]
  after_results

end Cert.KernelIdeal.Host

end
-- ==== Proof.KOps.lean ====
/-
  The two matrix products and the bias row of the kernel bodies, read at one element of an 8000-row block,
  at the ideal instance (floats are extended reals, a change of float format is the identity).

  * a product into the zero accumulator is the plain sum over the contracted axis:
    element (p, q) of `a · b` is `∑ k, a (p, k) * b (k, q)`;
  * a [1, 128] row spread over 8000 rows holds, at (p, q), the row's element q.
-/
import proofs.«403626_j46342697124299_3_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.KOps

open Cert.KernelIdeal Cert.KernelIdeal.Gen Idealize.ShloMosaic Idealize.ShloMosaic.ValueIdx

/-! ## The [8000, 128] × [128, 128] product -/

theorem lhsA_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhsA_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhsA_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhsA_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- Element (p, q) of a [8000,128] × [128,128] product into the zero accumulator. -/
theorem matmul128_apply {φ₁ φ₂ : FTy} (a : FVec Ideal S8000x128 φ₁) (b : FVec Ideal S128x128 φ₂) (p : Fin 8000) (q : Fin 128) :
    matmul dot_S8000x128_S128x128_S8000x128_1_0_0_1_n_n none a b (constant S8000x128 .f32 0x00000000#32) (ix2 p q)
      = ∑ k : Fin 128, a (ix2 p k) * b (ix2 k q) := by
  show FloatOps.matmul dot_S8000x128_S128x128_S8000x128_1_0_0_1_n_n none a b (constant S8000x128 .f32 0x00000000#32) (ix2 p q) = _
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p q) ((ValueIdx.contrEquiv1 dot_S8000x128_S128x128_S8000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S8000x128_S128x128_S8000x128_1_0_0_1_n_n.rhsIdx (ix2 p q) ((ValueIdx.contrEquiv1 dot_S8000x128_S128x128_S8000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ## The [8000, 64] × [64, 128] product -/

theorem lhsB_0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem lhsB_1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q
theorem rhsB_0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q
theorem rhsB_1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

/-- Element (p, q) of a [8000,64] × [64,128] product into the zero accumulator. -/
theorem matmul64_apply {φ₁ φ₂ : FTy} (a : FVec Ideal S8000x64 φ₁) (b : FVec Ideal S64x128 φ₂) (p : Fin 8000) (q : Fin 128) :
    matmul dot_S8000x64_S64x128_S8000x128_1_0_0_1_n_n none a b (constant S8000x128 .f32 0x00000000#32) (ix2 p q)
      = ∑ k : Fin 64, a (ix2 p k) * b (ix2 k q) := by
  show FloatOps.matmul dot_S8000x64_S64x128_S8000x128_1_0_0_1_n_n none a b (constant S8000x128 .f32 0x00000000#32) (ix2 p q) = _
  rw [Ideal.matmul_constant_zero_apply, ← Equiv.sum_comp (ValueIdx.contrEquiv1 dot_S8000x64_S64x128_S8000x128_1_0_0_1_n_n 64 rfl rfl).symm]
  refine Finset.sum_congr rfl fun k _ => ?_
  have hk := ValueIdx.contrEquiv1_symm_val dot_S8000x64_S64x128_S8000x128_1_0_0_1_n_n 64 rfl rfl k
  have el : dot_S8000x64_S64x128_S8000x128_1_0_0_1_n_n.lhsIdx (ix2 p q) ((ValueIdx.contrEquiv1 dot_S8000x64_S64x128_S8000x128_1_0_0_1_n_n 64 rfl rfl).symm k) = ix2 p k := funext fun a => Fin.ext (by
    match a with
    | ⟨0, _⟩ => exact lhsB_0 _ _
    | ⟨1, _⟩ => exact (lhsB_1 _ _).trans hk)
  have er : dot_S8000x64_S64x128_S8000x128_1_0_0_1_n_n.rhsIdx (ix2 p q) ((ValueIdx.contrEquiv1 dot_S8000x64_S64x128_S8000x128_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ## A bias row over the block's rows -/

/-- A [1, 128] row (cast to its own shape) spread over 8000 rows: at (p, q) it is the row's element q. -/
theorem bias_apply {α : Type} (v : S1x128.Idx → α) (p : Fin 8000) (q : Fin 128) :
    broadcastTo S8000x128 (shapeCast S1x128 v shapeCasts_S1x128_S1x128) broadcasts_S1x128_S8000x128 (ix2 p q)
      = v (ix2 (0 : Fin 1) q) := by
  rw [shapeCast_self]
  exact broadcastTo_apply v broadcasts_S1x128_S8000x128 (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

end Cert.KernelIdeal.KOps

end
-- ==== Proof.Region0.lean ====
/-
  The node projection (the first pallas_call), read as one whole-array function.

  The call walks the 40000 rows of `x` in five blocks of 8000; at a block it stores
  `x_blk · Wl + bl` (the product accumulated from zero, the bias row spread over the rows).
  Element (n, q) of the array it leaves is therefore `∑ k, x (n, k) * Wl (k, q) + bl q`, which is
  element (n, q) of the reference's `x @ Wl + bl`: the same sum, whatever block row n falls in.
  The blocks tile the array (row n is in block n / 8000), so the whole array is the reference's stage.
  Stated at any contents `V` the region is entered from, given what `V` holds in the region's three
  input arrays.
-/
import proofs.«403626_j46342697124299_3_alg».proof.Proof.Gen.KernelIdeal.Frame
import proofs.«403626_j46342697124299_3_alg».proof.Proof.Gen.ReferenceIdeal.Read
import proofs.«403626_j46342697124299_3_alg».proof.Proof.KOps
import Idealize.ShloMosaic.Lib.ValueIdx
import Idealize.ShloMosaic.Lib.Pipeline.Value
import Idealize.ShloMosaic.PureOps.Ideal.Laws

set_option maxRecDepth 16384

noncomputable section

namespace Cert.KernelIdeal.NodeProj

open Cert.KernelIdeal Cert.KernelIdeal.Gen Cert.KernelIdeal.KOps
open Idealize.ShloMosaic Idealize.ShloMosaic.TcCoe Idealize.ShloMosaic.ValueIdx Idealize.SL.Sem
open Idealize.ShloMosaic.Pipeline (Dat)

/-- The reference's `x @ Wl + bl`, as its generated stage. -/
abbrev hRef (X0 : FVec Ideal S40000x128 .f32) (X7 : FVec Ideal S128x128 .f32) (X8 : FVec Ideal S128 .f32) : FVec Ideal S40000x128 .f32 :=
  Cert.ReferenceIdeal.Read.val_main_v13 (F := Ideal) X0 X7 X8

/-- The reference's stage at (n, q): the row of `x` against the column of `Wl`, plus the bias. -/
theorem hRef_apply (X0 : FVec Ideal S40000x128 .f32) (X7 : FVec Ideal S128x128 .f32) (X8 : FVec Ideal S128 .f32)
    (n : Fin 40000) (q : Fin 128) :
    hRef X0 X7 X8 (ix2 n q) = (∑ k : Fin 128, X0 (ix2 n k) * X7 (ix2 k q)) + X8 (ix1 q) := by
  unfold hRef
  rw [Cert.ReferenceIdeal.Read.val_main_v13_apply, Cert.ReferenceIdeal.Read.val_main_v10_apply,
    Cert.ReferenceIdeal.Read.val_main_v12_apply, Cert.ReferenceIdeal.Read.val_main_v11_apply]
  have el : ∀ k : Fin 128, Cert.ReferenceIdeal.Read.lidx_main_v10 (ix2 n q) k = ix2 n k := fun k =>
    funext fun a => Fin.ext (by match a with | ⟨0, _⟩ => rfl | ⟨1, _⟩ => rfl)
  have er : ∀ k : Fin 128, Cert.ReferenceIdeal.Read.ridx_main_v10 (ix2 n q) k = ix2 k q := fun k =>
    funext fun a => Fin.ext (by match a with | ⟨0, _⟩ => rfl | ⟨1, _⟩ => rfl)
  have eb : Cert.ReferenceIdeal.Read.idx_main_v11 (Cert.ReferenceIdeal.Read.idx_main_v12 (ix2 n q)) = ix1 q :=
    funext fun a => Fin.ext (by match a with | ⟨0, _⟩ => rfl)
  simp only [el, er, eb]
  rfl

/-- The body's stored value at (p, q) of a block: the block row against the column of the weight, plus the bias row. -/
theorem pay_apply (x0 : Vec Ideal S8000x128 .f32) (x1 : Vec Ideal S128x128 .f32) (x2 : Vec Ideal S1x128 .f32)
    (p : Fin 8000) (q : Fin 128) :
    k0_pay1 (F := Ideal) x0 x1 x2 (ix2 p q) = (∑ k : Fin 128, x0 (ix2 p k) * x1 (ix2 k q)) + x2 (ix2 (0 : Fin 1) q) := by
  unfold k0_pay1
  rw [addf_apply, matmul128_apply, bias_apply]
  rfl

/-- One block against the whole array: if the block's rows are rows `r .. r + 7999` of `X0`, its weight
    all of `X7` and its bias row `X8`, the stored value at (p, q) is the reference's stage at (r + p, q). -/
theorem block_eq (x0 : Vec Ideal S8000x128 .f32) (x1 : Vec Ideal S128x128 .f32) (x2 : Vec Ideal S1x128 .f32)
    (X0 : FVec Ideal S40000x128 .f32) (X7 : FVec Ideal S128x128 .f32) (X8 : FVec Ideal S128 .f32)
    (p : Fin 8000) (q : Fin 128) (n : Fin 40000)
    (e0 : ∀ k : Fin 128, x0 (ix2 p k) = X0 (ix2 n k))
    (e1 : ∀ k : Fin 128, x1 (ix2 k q) = X7 (ix2 k q))
    (e2 : x2 (ix2 (0 : Fin 1) q) = X8 (ix1 q)) :
    k0_pay1 (F := Ideal) x0 x1 x2 (ix2 p q) = hRef X0 X7 X8 (ix2 n q) := by
  rw [pay_apply, hRef_apply, e2]
  exact congrArg (· + X8 (ix1 q)) (Finset.sum_congr rfl fun k _ => by rw [e0 k, e1 k])

variable (V : (c : Dev nD) → (b : Ref sig .tc) → Buf (Elt Ideal) ((c : Thread nD τ).loc b))

theorem hz : (![0, 0] : Fin 2 → Nat) = fun _ => 0 := funext fun a => by fin_cases a <;> rfl

/-- The index maps over the five points: the row window and the output move together, one block a point;
    the weight and the bias stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the reference's stage. -/
theorem flushed_eq (c : Dev nD) (t : Fin cfg0.N)
    (X0 : FVec Ideal S40000x128 .f32) (X7 : FVec Ideal S128x128 .f32) (X8 : FVec Ideal S128 .f32)
    (h0 : V c main_arg0 = X0) (h7 : V c main_arg7 = X7)
    (h4 : V c main_v4 = shapeCast S1x128 X8 shapeCasts_S128_S1x128) :
    (dat0 V c).flushed 3 t = ((cfg0.win 3).blk t).view.read (Elt Ideal) (hRef X0 X7 X8) := by
  show (cfg0.win 3).cut (grid0.coords t) ((dat0 V c).after 3 t) = _
  rw [after0_3]
  unfold out0_3
  rw [View.canon_unit_zero hz]
  simp only [View.ld_unit_zero (S := S8000x128) hz, View.ld_unit_zero (S := S128x128) hz, View.ld_unit_zero (S := S1x128) hz]
  obtain ⟨e00, e01, e10, e11, e20, e21, e30, e31⟩ := idx_facts t
  have ht : t.val < 5 := t.isLt
  funext j
  obtain ⟨p, q, rfl⟩ : ∃ (p : Fin 8000) (q : Fin 128), j = ix2 p q := ⟨j 0, j 1, eq_ix2 j⟩
  have hp : p.val < 8000 := p.isLt
  have hq : q.val < 128 := q.isLt
  -- the row of the whole array this block row is
  obtain ⟨n, hn⟩ : ∃ n : Fin 40000, n.val = t.val * 8000 + p.val := ⟨⟨t.val * 8000 + p.val, by omega⟩, rfl⟩
  show k0_pay1 (F := Ideal) (iblk0 V c 0 t) (iblk0 V c 1 t) (iblk0 V c 2 t) (ix2 p q)
    = hRef X0 X7 X8 (((cfg0.win 3).blk t).view.emb (ix2 p q))
  have hemb : ((cfg0.win 3).blk t).view.emb (ix2 p q) = ix2 n q := by
    funext a; apply Fin.ext
    match a with
    | ⟨0, _⟩ => show win0_3.index t (0 : Fin 2) * 8000 + 1 * p.val = n.val; rw [e30, hn]; omega
    | ⟨1, _⟩ => show win0_3.index t (1 : Fin 2) * 128 + 1 * q.val = q.val; rw [e31]; omega
  rw [hemb]
  refine block_eq (iblk0 V c 0 t) (iblk0 V c 1 t) (iblk0 V c 2 t) X0 X7 X8 p q n ?_ ?_ ?_
  · intro k
    show V c main_arg0 (((cfg0.win 0).blk t).view.emb (ix2 p k)) = X0 (ix2 n k)
    rw [h0]
    refine congrArg X0 (funext fun a => Fin.ext ?_)
    match a with
    | ⟨0, _⟩ => show win0_0.index t (0 : Fin 2) * 8000 + 1 * p.val = n.val; rw [e00, hn]; omega
    | ⟨1, _⟩ => show win0_0.index t (1 : Fin 2) * 128 + 1 * k.val = k.val; rw [e01]; omega
  · intro k
    show V c main_arg7 (((cfg0.win 1).blk t).view.emb (ix2 k q)) = X7 (ix2 k q)
    rw [h7]
    refine congrArg X7 (funext fun a => Fin.ext ?_)
    match a with
    | ⟨0, _⟩ => show win0_1.index t (0 : Fin 2) * 128 + 1 * k.val = k.val; rw [e10]; omega
    | ⟨1, _⟩ => show win0_1.index t (1 : Fin 2) * 128 + 1 * q.val = q.val; rw [e11]; omega
  · show V c main_v4 (((cfg0.win 2).blk t).view.emb (ix2 (0 : Fin 1) q)) = X8 (ix1 q)
    rw [h4]
    refine shapeCast_apply X8 shapeCasts_S128_S1x128 _ (ix1 q) ?_
    rewrite [Shape.rowMajor_val_two, Shape.rowMajor_val_one]
    show q.val = (win0_2.index t (0 : Fin 2) * 1 + 1 * 0) * 128 + (win0_2.index t (1 : Fin 2) * 128 + 1 * q.val)
    rw [e20, e21]; omega

/-- An index of the array is in point `t`'s block iff each coordinate is in the block's range on its axis. -/
theorem mem_blk (t : Fin cfg0.N) (i : S40000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v5).slice (win0_3.rect t)).set ↔ _
  rw [View.set_slice_whole, Rect.mem_set_unit]
  exact Iff.rfl

/-- The five blocks tile the array: row n lies in block n / 8000. -/
theorem cover (i : S40000x128.Idx) :
    ∃ t : Fin cfg0.N, (cfg0.win 3).flush t = true ∧ i ∈ ((cfg0.win 3).blk t).view.set := by
  have hi0 : (i 0).val < 40000 := (i 0).isLt
  have hi1 : (i 1).val < 128 := (i 1).isLt
  obtain ⟨t, ht⟩ : ∃ t : Fin cfg0.N, t.val = (i 0).val / 8000 := ⟨⟨(i 0).val / 8000, by show _ < grid0.N; rw [N_0]; omega⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 8000 ≤ (i 0).val ∧ (i 0).val < win0_3.index t (0 : Fin 2) * 8000 + 8000; rw [e30, ht]; omega
  | ⟨1, _⟩ => show win0_3.index t (1 : Fin 2) * 128 ≤ (i 1).val ∧ (i 1).val < win0_3.index t (1 : Fin 2) * 128 + 128; rw [e31]; omega

/-- THE ARRAY the first call leaves: the reference's `x @ Wl + bl` of what the region found in its inputs. -/
theorem final (c : Dev nD)
    (X0 : FVec Ideal S40000x128 .f32) (X7 : FVec Ideal S128x128 .f32) (X8 : FVec Ideal S128 .f32)
    (h0 : V c main_arg0 = X0) (h7 : V c main_arg7 = X7)
    (h4 : V c main_v4 = shapeCast S1x128 X8 shapeCasts_S128_S1x128) :
    (dat0 V c).arrAt 3 cfg0.N = hRef X0 X7 X8 :=
  (dat0 V c).arrAt_eq_of_cover 3 (hRef X0 X7 X8) (fun t _ => flushed_eq V c t X0 X7 X8 h0 h7 h4) cover

end Cert.KernelIdeal.NodeProj

end
-- ==== Proof.Region1.lean ====
/-
  The filter network (the second pallas_call), read as one whole-array function.

  The call walks the 640000 rows of the radial basis in eighty blocks of 8000; at a block it stores
  `(max (rbf_blk · W1 + b1, 0) · W2 + b2) * hg_blk`: both products accumulated from zero, the bias rows spread
  over the rows, the maximum taken against the zero word, the last product elementwise with the gathered rows.
  Element (n, q) of the array it leaves is therefore
  `((∑ k, max ((∑ j, rbf (n, j) * W1 (j, k)) + b1 k) 0 * W2 (k, q)) + b2 q) * hg (n, q)`,
  which is the gathered rows times element (n, q) of the reference's weight stage: the same sums, whatever block
  row n falls in. The blocks tile the array (row n is in block n / 8000), so the whole array is that product.
  Stated at any contents `V` the region is entered from, given what `V` holds in the region's six input arrays.
-/
import proofs.«403626_j46342697124299_3_alg».proof.Proof.Gen.KernelIdeal.Frame
import proofs.«403626_j46342697124299_3_alg».proof.Proof.Gen.ReferenceIdeal.Read
import proofs.«403626_j46342697124299_3_alg».proof.Proof.KOps
import Idealize.ShloMosaic.Lib.ValueIdx
import Idealize.ShloMosaic.Lib.Pipeline.Value
import Idealize.ShloMosaic.PureOps.Ideal.Laws

set_option maxRecDepth 16384

noncomputable section

namespace Cert.KernelIdeal.Filter

open Cert.KernelIdeal Cert.KernelIdeal.Gen Cert.KernelIdeal.KOps
open Idealize.ShloMosaic Idealize.ShloMosaic.TcCoe Idealize.ShloMosaic.ValueIdx Idealize.SL.Sem
open Idealize.ShloMosaic.Pipeline (Dat)

/-- The reference's weight stage `max (rbf @ W1 + b1, 0) @ W2 + b2`, as its generated stage. -/
abbrev wRef (X2 : FVec Ideal S640000x64 .f32) (X3 : FVec Ideal S64x128 .f32) (X4 : FVec Ideal S128 .f32) (X5 : FVec Ideal S128x128 .f32) (X6 : FVec Ideal S128 .f32) : FVec Ideal S640000x128 .f32 :=
  Cert.ReferenceIdeal.Read.val_main_v9 (F := Ideal) X2 X3 X4 X5 X6

/-- The reference's stage at (n, q): the hidden row (the row of `rbf` against the columns of `W1`, plus the bias,
    clamped below at the zero word) against the column of `W2`, plus the bias. -/
theorem wRef_apply (X2 : FVec Ideal S640000x64 .f32) (X3 : FVec Ideal S64x128 .f32) (X4 : FVec Ideal S128 .f32) (X5 : FVec Ideal S128x128 .f32) (X6 : FVec Ideal S128 .f32)
    (n : Fin 640000) (q : Fin 128) :
    wRef X2 X3 X4 X5 X6 (ix2 n q)
      = (∑ k : Fin 128, max ((∑ j : Fin 64, X2 (ix2 n j) * X3 (ix2 j k)) + X4 (ix1 k)) (Ideal.ofBits .f32 0x00000000#32) * X5 (ix2 k q)) + X6 (ix1 q) := by
  unfold wRef
  rw [Cert.ReferenceIdeal.Read.val_main_v9_apply, Cert.ReferenceIdeal.Read.val_main_v6_apply,
    Cert.ReferenceIdeal.Read.val_main_v8_apply, Cert.ReferenceIdeal.Read.val_main_v7_apply]
  have el : ∀ k : Fin 128, Cert.ReferenceIdeal.Read.lidx_main_v6 (ix2 n q) k = ix2 n k := fun k =>
    funext fun a => Fin.ext (by match a with | ⟨0, _⟩ => rfl | ⟨1, _⟩ => rfl)
  have er : ∀ k : Fin 128, Cert.ReferenceIdeal.Read.ridx_main_v6 (ix2 n q) k = ix2 k q := fun k =>
    funext fun a => Fin.ext (by match a with | ⟨0, _⟩ => rfl | ⟨1, _⟩ => rfl)
  have eb : Cert.ReferenceIdeal.Read.idx_main_v7 (Cert.ReferenceIdeal.Read.idx_main_v8 (ix2 n q)) = ix1 q :=
    funext fun a => Fin.ext (by match a with | ⟨0, _⟩ => rfl)
  have el0 : ∀ (k : Fin 128) (j : Fin 64), Cert.ReferenceIdeal.Read.lidx_main_v0 (ix2 n k) j = ix2 n j := fun k j =>
    funext fun a => Fin.ext (by match a with | ⟨0, _⟩ => rfl | ⟨1, _⟩ => rfl)
  have er0 : ∀ (k : Fin 128) (j : Fin 64), Cert.ReferenceIdeal.Read.ridx_main_v0 (ix2 n k) j = ix2 j k := fun k j =>
    funext fun a => Fin.ext (by match a with | ⟨0, _⟩ => rfl | ⟨1, _⟩ => rfl)
  have eb0 : ∀ k : Fin 128, Cert.ReferenceIdeal.Read.idx_main_v1 (Cert.ReferenceIdeal.Read.idx_main_v2 (ix2 n k)) = ix1 k := fun k =>
    funext fun a => Fin.ext (by match a with | ⟨0, _⟩ => rfl)
  simp only [el, er, eb, Cert.ReferenceIdeal.Read.val_main_v5_apply, Cert.ReferenceIdeal.Read.val_main_v3_apply,
    Cert.ReferenceIdeal.Read.val_main_v0_apply, Cert.ReferenceIdeal.Read.val_main_v2_apply,
    Cert.ReferenceIdeal.Read.val_main_v1_apply, Cert.ReferenceIdeal.Read.val_main_v4_apply,
    Cert.ReferenceIdeal.Read.val_main_cst_apply, el0, er0, eb0]
  rfl

/-- The body's stored value at (p, q) of a block: the hidden block row against the column of the second weight,
    plus its bias row, times the gathered block's element. -/
theorem pay_apply (x0 : Vec Ideal S8000x64 .f32) (x2 : Vec Ideal S64x128 .f32) (x3 : Vec Ideal S1x128 .f32)
    (x4 : Vec Ideal S128x128 .f32) (x5 : Vec Ideal S1x128 .f32) (x1 : Vec Ideal S8000x128 .f32)
    (p : Fin 8000) (q : Fin 128) :
    k1_pay1 (F := Ideal) x0 x2 x3 x4 x5 x1 (ix2 p q)
      = ((∑ k : Fin 128, max ((∑ j : Fin 64, x0 (ix2 p j) * x2 (ix2 j k)) + x3 (ix2 (0 : Fin 1) k)) (Ideal.ofBits .f32 0x00000000#32) * x4 (ix2 k q))
          + x5 (ix2 (0 : Fin 1) q)) * x1 (ix2 p q) := by
  unfold k1_pay1
  rw [mulf_apply, addf_apply, matmul128_apply, bias_apply, shapeCast_self x1]
  refine congrArg (· * x1 (ix2 p q)) (congrArg (· + x5 (ix2 (0 : Fin 1) q)) (Finset.sum_congr rfl fun k _ => ?_))
  rw [truncf_apply, truncf_apply, maximumf_apply, addf_apply, matmul64_apply, bias_apply, broadcast_apply]
  rfl

/-- One block against the whole arrays: if the block's rows are rows `r .. r + 7999` of `X2` and of `HG`, its
    weights all of `X3` and `X5` and its bias rows `X4` and `X6`, the stored value at (p, q) is the gathered
    element times the reference's stage at (r + p, q); the product of extended reals commutes. -/
theorem block_eq (x0 : Vec Ideal S8000x64 .f32) (x2 : Vec Ideal S64x128 .f32) (x3 : Vec Ideal S1x128 .f32)
    (x4 : Vec Ideal S128x128 .f32) (x5 : Vec Ideal S1x128 .f32) (x1 : Vec Ideal S8000x128 .f32)
    (X2 : FVec Ideal S640000x64 .f32) (X3 : FVec Ideal S64x128 .f32) (X4 : FVec Ideal S128 .f32) (X5 : FVec Ideal S128x128 .f32) (X6 : FVec Ideal S128 .f32) (HG : FVec Ideal S640000x128 .f32)
    (p : Fin 8000) (q : Fin 128) (n : Fin 640000)
    (e0 : ∀ j : Fin 64, x0 (ix2 p j) = X2 (ix2 n j))
    (e2 : ∀ (j : Fin 64) (k : Fin 128), x2 (ix2 j k) = X3 (ix2 j k))
    (e3 : ∀ k : Fin 128, x3 (ix2 (0 : Fin 1) k) = X4 (ix1 k))
    (e4 : ∀ k : Fin 128, x4 (ix2 k q) = X5 (ix2 k q))
    (e5 : x5 (ix2 (0 : Fin 1) q) = X6 (ix1 q))
    (e1 : x1 (ix2 p q) = HG (ix2 n q)) :
    k1_pay1 (F := Ideal) x0 x2 x3 x4 x5 x1 (ix2 p q) = mulf HG (wRef X2 X3 X4 X5 X6) (ix2 n q) := by
  rw [pay_apply, mulf_apply, wRef_apply, mul_comm (HG (ix2 n q)), e5, e1]
  refine congrArg (· * HG (ix2 n q)) (congrArg (· + X6 (ix1 q)) (Finset.sum_congr rfl fun k _ => ?_))
  rw [e3 k, e4 k]
  refine congrArg (fun s => max (s + X4 (ix1 k)) (Ideal.ofBits .f32 0x00000000#32) * X5 (ix2 k q)) (Finset.sum_congr rfl fun j _ => ?_)
  rw [e0 j, e2 j k]

variable (V : (c : Dev nD) → (b : Ref sig .tc) → Buf (Elt Ideal) ((c : Thread nD τ).loc b))

theorem hz : (![0, 0] : Fin 2 → Nat) = fun _ => 0 := funext fun a => by fin_cases a <;> rfl

/-- The index maps over the eighty points: the two row windows and the output move together, one block a point;
    the weights and the bias rows stay at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of the gathered rows times the reference's stage. -/
theorem flushed_eq (c : Dev nD) (t : Fin cfg1.N)
    (X2 : FVec Ideal S640000x64 .f32) (X3 : FVec Ideal S64x128 .f32) (X4 : FVec Ideal S128 .f32) (X5 : FVec Ideal S128x128 .f32) (X6 : FVec Ideal S128 .f32) (HG : FVec Ideal S640000x128 .f32)
    (h2 : V c main_arg2 = X2) (hg : V c main_v6 = HG) (h3 : V c main_arg3 = X3)
    (h7 : V c main_v7 = shapeCast S1x128 X4 shapeCasts_S128_S1x128)
    (h5 : V c main_arg5 = X5)
    (h8 : V c main_v8 = shapeCast S1x128 X6 shapeCasts_S128_S1x128) :
    (dat1 V c).flushed 6 t = ((cfg1.win 6).blk t).view.read (Elt Ideal) (mulf HG (wRef X2 X3 X4 X5 X6)) := by
  show (cfg1.win 6).cut (grid1.coords t) ((dat1 V c).after 6 t) = _
  rw [after1_6]
  unfold out1_6
  rw [View.canon_unit_zero hz]
  simp only [View.ld_unit_zero (S := S8000x64) hz, View.ld_unit_zero (S := S8000x128) hz, View.ld_unit_zero (S := S64x128) hz,
    View.ld_unit_zero (S := S128x128) hz, View.ld_unit_zero (S := S1x128) hz]
  obtain ⟨e00, e01, e10, e11, e20, e21, e30, e31, e40, e41, e50, e51, e60, e61⟩ := idx_facts t
  have ht : t.val < 80 := t.isLt
  funext j
  obtain ⟨p, q, rfl⟩ : ∃ (p : Fin 8000) (q : Fin 128), j = ix2 p q := ⟨j 0, j 1, eq_ix2 j⟩
  have hp : p.val < 8000 := p.isLt
  have hq : q.val < 128 := q.isLt
  -- the row of the whole arrays this block row is
  obtain ⟨n, hn⟩ : ∃ n : Fin 640000, n.val = t.val * 8000 + p.val := ⟨⟨t.val * 8000 + p.val, by omega⟩, rfl⟩
  show k1_pay1 (F := Ideal) (iblk1 V c 0 t) (iblk1 V c 2 t) (iblk1 V c 3 t) (iblk1 V c 4 t) (iblk1 V c 5 t) (iblk1 V c 1 t) (ix2 p q)
    = mulf HG (wRef X2 X3 X4 X5 X6) (((cfg1.win 6).blk t).view.emb (ix2 p q))
  have hemb : ((cfg1.win 6).blk t).view.emb (ix2 p q) = ix2 n q := by
    funext a; apply Fin.ext
    match a with
    | ⟨0, _⟩ => show win1_6.index t (0 : Fin 2) * 8000 + 1 * p.val = n.val; rw [e60, hn]; omega
    | ⟨1, _⟩ => show win1_6.index t (1 : Fin 2) * 128 + 1 * q.val = q.val; rw [e61]; omega
  rw [hemb]
  refine block_eq (iblk1 V c 0 t) (iblk1 V c 2 t) (iblk1 V c 3 t) (iblk1 V c 4 t) (iblk1 V c 5 t) (iblk1 V c 1 t)
    X2 X3 X4 X5 X6 HG p q n ?_ ?_ ?_ ?_ ?_ ?_
  · intro k
    show V c main_arg2 (((cfg1.win 0).blk t).view.emb (ix2 p k)) = X2 (ix2 n k)
    rw [h2]
    refine congrArg X2 (funext fun a => Fin.ext ?_)
    match a with
    | ⟨0, _⟩ => show win1_0.index t (0 : Fin 2) * 8000 + 1 * p.val = n.val; rw [e00, hn]; omega
    | ⟨1, _⟩ => show win1_0.index t (1 : Fin 2) * 64 + 1 * k.val = k.val; rw [e01]; omega
  · intro j k
    show V c main_arg3 (((cfg1.win 2).blk t).view.emb (ix2 j k)) = X3 (ix2 j k)
    rw [h3]
    refine congrArg X3 (funext fun a => Fin.ext ?_)
    match a with
    | ⟨0, _⟩ => show win1_2.index t (0 : Fin 2) * 64 + 1 * j.val = j.val; rw [e20]; omega
    | ⟨1, _⟩ => show win1_2.index t (1 : Fin 2) * 128 + 1 * k.val = k.val; rw [e21]; omega
  · intro k
    show V c main_v7 (((cfg1.win 3).blk t).view.emb (ix2 (0 : Fin 1) k)) = X4 (ix1 k)
    rw [h7]
    refine shapeCast_apply X4 shapeCasts_S128_S1x128 _ (ix1 k) ?_
    rewrite [Shape.rowMajor_val_two, Shape.rowMajor_val_one]
    show k.val = (win1_3.index t (0 : Fin 2) * 1 + 1 * 0) * 128 + (win1_3.index t (1 : Fin 2) * 128 + 1 * k.val)
    rw [e30, e31]; omega
  · intro k
    show V c main_arg5 (((cfg1.win 4).blk t).view.emb (ix2 k q)) = X5 (ix2 k q)
    rw [h5]
    refine congrArg X5 (funext fun a => Fin.ext ?_)
    match a with
    | ⟨0, _⟩ => show win1_4.index t (0 : Fin 2) * 128 + 1 * k.val = k.val; rw [e40]; omega
    | ⟨1, _⟩ => show win1_4.index t (1 : Fin 2) * 128 + 1 * q.val = q.val; rw [e41]; omega
  · show V c main_v8 (((cfg1.win 5).blk t).view.emb (ix2 (0 : Fin 1) q)) = X6 (ix1 q)
    rw [h8]
    refine shapeCast_apply X6 shapeCasts_S128_S1x128 _ (ix1 q) ?_
    rewrite [Shape.rowMajor_val_two, Shape.rowMajor_val_one]
    show q.val = (win1_5.index t (0 : Fin 2) * 1 + 1 * 0) * 128 + (win1_5.index t (1 : Fin 2) * 128 + 1 * q.val)
    rw [e50, e51]; omega
  · show V c main_v6 (((cfg1.win 1).blk t).view.emb (ix2 p q)) = HG (ix2 n q)
    rw [hg]
    refine congrArg HG (funext fun a => Fin.ext ?_)
    match a with
    | ⟨0, _⟩ => show win1_1.index t (0 : Fin 2) * 8000 + 1 * p.val = n.val; rw [e10, hn]; omega
    | ⟨1, _⟩ => show win1_1.index t (1 : Fin 2) * 128 + 1 * q.val = q.val; rw [e11]; omega

/-- An index of the array is in point `t`'s block iff each coordinate is in the block's range on its axis. -/
theorem mem_blk (t : Fin cfg1.N) (i : S640000x128.Idx) :
    i ∈ ((cfg1.win 6).blk t).view.set ↔ ∀ a : Fin 2, win1_6.index t a * S8000x128.size a ≤ (i a).val ∧ (i a).val < win1_6.index t a * S8000x128.size a + S8000x128.size a := by
  show i ∈ ((View.whole main_v9).slice (win1_6.rect t)).set ↔ _
  rw [View.set_slice_whole, Rect.mem_set_unit]
  exact Iff.rfl

/-- The eighty blocks tile the array: row n lies in block n / 8000. -/
theorem cover (i : S640000x128.Idx) :
    ∃ t : Fin cfg1.N, (cfg1.win 6).flush t = true ∧ i ∈ ((cfg1.win 6).blk t).view.set := by
  have hi0 : (i 0).val < 640000 := (i 0).isLt
  have hi1 : (i 1).val < 128 := (i 1).isLt
  obtain ⟨t, ht⟩ : ∃ t : Fin cfg1.N, t.val = (i 0).val / 8000 := ⟨⟨(i 0).val / 8000, by show _ < grid1.N; rw [N_1]; omega⟩, rfl⟩
  obtain ⟨-, -, -, -, -, -, -, -, -, -, -, -, e60, e61⟩ := idx_facts t
  refine ⟨t, flush1_6 t, ?_⟩
  rw [mem_blk]
  intro a
  match a with
  | ⟨0, _⟩ => show win1_6.index t (0 : Fin 2) * 8000 ≤ (i 0).val ∧ (i 0).val < win1_6.index t (0 : Fin 2) * 8000 + 8000; rw [e60, ht]; omega
  | ⟨1, _⟩ => show win1_6.index t (1 : Fin 2) * 128 ≤ (i 1).val ∧ (i 1).val < win1_6.index t (1 : Fin 2) * 128 + 128; rw [e61]; omega

/-- THE ARRAY the second call leaves: the gathered rows times the reference's weight stage of what the region
    found in its inputs. -/
theorem final (c : Dev nD)
    (X2 : FVec Ideal S640000x64 .f32) (X3 : FVec Ideal S64x128 .f32) (X4 : FVec Ideal S128 .f32) (X5 : FVec Ideal S128x128 .f32) (X6 : FVec Ideal S128 .f32) (HG : FVec Ideal S640000x128 .f32)
    (h2 : V c main_arg2 = X2) (hg : V c main_v6 = HG) (h3 : V c main_arg3 = X3)
    (h7 : V c main_v7 = shapeCast S1x128 X4 shapeCasts_S128_S1x128)
    (h5 : V c main_arg5 = X5)
    (h8 : V c main_v8 = shapeCast S1x128 X6 shapeCasts_S128_S1x128) :
    (dat1 V c).arrAt 6 cfg1.N = mulf HG (wRef X2 X3 X4 X5 X6) :=
  (dat1 V c).arrAt_eq_of_cover 6 (mulf HG (wRef X2 X3 X4 X5 X6))
    (fun t _ => flushed_eq V c t X2 X3 X4 X5 X6 HG h2 hg h3 h7 h5 h8) cover

end Cert.KernelIdeal.Filter

end
-- ==== Proof.PreRange.lean ====
import proofs.«403626_j46342697124299_3_alg».proof.Proof.Gen.Pre_finite_inputs
import Idealize.ShloMosaic.Lib.ReduceAll
import Idealize.ShloMosaic.Lib.Affine
import Idealize.ShloMosaic.Lib.ValueIdx

/-!
  The integer range test of the precondition, read back, and the index wrap of the two programs.

  * `col_range`: the precondition's last conjunct says every entry of row 1 of the [2, 640000] index input lies in
    [-40000, 40000) as a signed word.
  * `wrap_inb`: for a word in that range, `w < 0 ? w + 40000 : w` lies in [0, 39999].
-/

namespace Cert.PreRange

open Idealize.ShloMosaic
open Cert.Pre_finite_inputs Cert.Pre_finite_inputs.Gen

/-- A rank-0 shape has one index. -/
instance : Subsingleton S_.Idx := ⟨fun a b => funext fun d => d.elim0⟩

/-- A conjunction of bits that is 1 has its second bit 1. -/
theorem andi_right {c d : BitVec 1} (h : IntOp.andi c d = 1#1) : d = 1#1 := (IntOp.andi_eq_one.1 h).2

/-- The range test at one element: both comparisons of the element with the two broadcast constants hold, read signed. -/
theorem elem_range (col : IVec S640000 32) (e : S640000.Idx)
    (h : (andi (cmpi .sge col (broadcastInDim S640000 ![] Facts.bcast_S_S640000 (constantI S_ 32 4294927296#32)))
        (cmpi .slt col (broadcastInDim S640000 ![] Facts.bcast_S_S640000 (constantI S_ 32 40000#32)))) e = 1#1) :
    -40000 ≤ (col e).toInt ∧ (col e).toInt < 40000 := by
  have h' : IntOp.andi (IntOp.cmpi .sge (col e) 4294927296#32) (IntOp.cmpi .slt (col e) 40000#32) = 1#1 := h
  obtain ⟨hge, hlt⟩ := IntOp.andi_eq_one.1 h'
  rw [IntOp.cmpi_sge] at hge
  rw [IntOp.cmpi_slt] at hlt
  have c1 : (4294927296#32 : BitVec 32).toInt = -40000 := by decide
  have c2 : (40000#32 : BitVec 32).toInt = 40000 := by decide
  rw [c1] at hge
  rw [c2] at hlt
  exact ⟨hge, hlt⟩

theorem col_range (a0 : FVec Ideal S40000x128 .f32) (a1 : IVec S2x640000 32) (a2 : FVec Ideal S640000x64 .f32) (a3 : FVec Ideal S64x128 .f32) (a4 : FVec Ideal S128 .f32) (a5 : FVec Ideal S128x128 .f32) (a6 : FVec Ideal S128 .f32) (a7 : FVec Ideal S128x128 .f32) (a8 : FVec Ideal S128 .f32)
    (h : Cert.Pre_finite_inputs.fn (F := Ideal) a0 a1 a2 a3 a4 a5 a6 a7 a8 = fun _ => 1#1) (e : S640000.Idx) :
    -40000 ≤ ((shapeCast S640000 (extractStridedSlice S1x640000 ![1, 0] a1 slices_S2x640000_S1x640000_1_0) shapeCasts_S1x640000_S640000) e).toInt
    ∧ ((shapeCast S640000 (extractStridedSlice S1x640000 ![1, 0] a1 slices_S2x640000_S1x640000_1_0) shapeCasts_S1x640000_S640000) e).toInt < 40000 := by
  have h0 := congrFun h ValueIdx.ix0
  dsimp only [Cert.Pre_finite_inputs.fn, Cert.Pre_finite_inputs.fn_part1, Cert.Pre_finite_inputs.fn_part2] at h0
  -- the precondition is a conjunction whose last bit is the reduction of the range test over the column
  have h1 := andi_right (show IntOp.andi _ _ = 1#1 from h0)
  exact elem_range _ e (Host.reduce_andi_all _ _ _ _ _ h1 e)

/-- the wrapped index 'w < 0 ? w + 40000 : w' as both programs spell it -/
def wrap (w : BitVec 32) : BitVec 32 := Scalar.select (IntOp.cmpi .slt w 0#32) (IntOp.addi w 40000#32) w

theorem wrap_inb (w : BitVec 32) (h1 : -40000 ≤ w.toInt) (h2 : w.toInt < 40000) :
    IntOp.cmpi .sge (wrap w) 0#32 = 1#1 ∧ IntOp.cmpi .sle (wrap w) 39999#32 = 1#1 := by
  have c0 : (0#32 : BitVec 32).toInt = 0 := by decide
  have c1 : (39999#32 : BitVec 32).toInt = 39999 := by decide
  have c2 : (40000#32 : BitVec 32).toInt = 40000 := by decide
  rw [IntOp.cmpi_sge, IntOp.cmpi_sle, c0, c1]
  unfold wrap Scalar.select
  by_cases hneg : w.toInt < 0
  · -- a negative word: the sum w + 40000 lies in [0, 40000), far from the wrap of 32-bit addition
    have hc : IntOp.cmpi .slt w 0#32 = (1 : BitVec 1) := IntOp.cmpi_slt.2 (by rw [c0]; exact hneg)
    have hadd : (IntOp.addi w 40000#32).toInt = w.toInt + 40000 := by
      show (w + 40000#32).toInt = _
      rw [BitVec.toInt_add, c2]
      exact Int.bmod_eq_of_le_mul_two (by omega) (by omega)
    rw [if_pos hc, hadd]
    omega
  · -- a nonnegative word is kept
    have hc : ¬ IntOp.cmpi .slt w 0#32 = (1 : BitVec 1) := fun hh => hneg (by have := IntOp.cmpi_slt.1 hh; rwa [c0] at this)
    rw [if_neg hc]
    omega

end Cert.PreRange
-- ==== Proof.TakeSel.lean ====
import proofs.«403626_j46342697124299_3_alg».proof.Proof.HostFacts
import proofs.«403626_j46342697124299_3_alg».proof.Proof.PreRange
import Idealize.ShloMosaic.Lib.ValueIdx
import Idealize.ShloMosaic.PureOps.Reduce

/-!
  The gather between the two calls, with its index wrap, its range mask and its fill, is the plain gather of the
  wrapped index column when every source word lies in [-40000, 40000): the wrapped word then lies in [0, 39999], the
  mask (the conjunction over the unit axis of the two range tests, spread over the 128 columns) is 1 everywhere, and
  the select returns the gathered rows.
-/

namespace Cert.KernelIdeal.Take

open Cert.KernelIdeal Cert.KernelIdeal.Gen Cert.KernelIdeal.Host
open Idealize.ShloMosaic

/-- A left fold by `and` from 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from rfl]
    exact foldl_andi_ones f hf l

/-- A reduction by `and` from the initial value 1 of an array whose every bit is 1 is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x hx _

/-- A broadcast of an array of ones reads 1 everywhere. -/
theorem bcast_ones {s t : Shape} (dims : Fin s.rank → Fin t.rank) (h : s.BroadcastsInDim t dims) (x : s.Idx → BitVec 1)
    (hx : ∀ k, x k = 1#1) (j : t.Idx) : broadcastInDim t dims h x j = 1#1 := hx _

/-- A select under a mask of ones is its first branch. -/
theorem select_of_ones {α : Type} {s : Shape} (c : IVec s 1) (a b : s.Idx → α) (hc : ∀ i, c i = 1#1) : select c a b = a := by
  funext i
  rw [ValueIdx.select_apply, hc i, ValueIdx.select_one]

/-- Every entry of the index column is the wrap of an entry of the source row. -/
theorem takeIdx_apply (col : IVec S640000 32) (i : S640000x1.Idx) : ∃ k : S640000.Idx, takeIdx col i = Cert.PreRange.wrap (col k) :=
  ⟨_, rfl⟩

/-- With every source word in [-40000, 40000) the range test of the wrapped index holds at every entry. -/
theorem inb_elem (col : IVec S640000 32) (hr : ∀ e : S640000.Idx, -40000 ≤ (col e).toInt ∧ (col e).toInt < 40000) (i : S640000x1.Idx) :
    (andi (cmpi .sge (takeIdx col) (broadcastInDim S640000x1 ![] bcast_S_S640000x1 (constantI S_ 32 0#32)))
          (cmpi .sle (takeIdx col) (broadcastInDim S640000x1 ![0, 1] bcast_S1x1_S640000x1_0_1 (broadcastInDim S1x1 ![1] bcast_S1_S1x1_1 (constantI S1 32 39999#32))))) i = 1#1 := by
  obtain ⟨k, hk⟩ := takeIdx_apply col i
  obtain ⟨h1, h2⟩ := Cert.PreRange.wrap_inb (col k) (hr k).1 (hr k).2
  show IntOp.andi (IntOp.cmpi .sge (takeIdx col i) 0#32) (IntOp.cmpi .sle (takeIdx col i) 39999#32) = 1#1
  rw [hk, h1, h2]
  rfl

theorem take_eq_gather {F : FTy → Type} [FloatOps F] (h : FVec F S40000x128 .f32) (col : IVec S640000 32)
    (hr : ∀ e : S640000.Idx, -40000 ≤ (col e).toInt ∧ (col e).toInt < 40000) :
    takeTerm h col = Host.gather gather_S40000x128_S640000x1_S640000x128_1_0_n_n_0_1_1128 h (takeIdx col) :=
  select_of_ones _ _ _ (bcast_ones _ _ _ (fun k => reduce_andi_of_all _ _ _ _ k rfl (inb_elem col hr)))

end Cert.KernelIdeal.Take
-- ==== Proof.KValue.lean ====
/-
  The kernel program's result is the reference's result, as one term of the launch memory.

  The node projection leaves `x @ Wl + bl` (the reference's stage); under the precondition every source index
  lies in [-40000, 40000), so its wrapped word passes the gather's range mask and the gather's select keeps the
  gathered rows: they are the reference's gathered rows, the same gather of the same array at the same wrapped
  indices. The filter network leaves those rows times the reference's weight stage, which is the reference's
  message array; both programs then scatter-add the same messages by the same destination rows onto the zero array.
-/
import proofs.«403626_j46342697124299_3_alg».proof.Proof.HostFacts
import proofs.«403626_j46342697124299_3_alg».proof.Proof.Region0
import proofs.«403626_j46342697124299_3_alg».proof.Proof.Region1
import proofs.«403626_j46342697124299_3_alg».proof.Proof.TakeSel
import proofs.«403626_j46342697124299_3_alg».proof.Proof.PreRange
import proofs.«403626_j46342697124299_3_alg».proof.Proof.Gen.ReferenceIdeal.Read

set_option maxRecDepth 16384

noncomputable section

namespace Cert.KernelIdeal.KValue

open Cert.KernelIdeal Cert.KernelIdeal.Gen Cert.KernelIdeal.Host
open Idealize.ShloMosaic Idealize.ShloMosaic.TcCoe Idealize.SL.Sem

variable (m : (ℓ : Loc nD τ sig) → Buf (Elt Ideal) ℓ) (ρ : Dev nD → PrngReg)

/-- The argument arrays as launched, by name. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)

/-- The projected array the first call leaves is the reference's `x @ Wl + bl`. -/
theorem proj_eq (c : Dev nD) :
    (dat0 (V1 m ρ) c).arrAt 3 cfg0.N = Cert.ReferenceIdeal.Read.val_main_v13 (F := Ideal) (A0 m c) (A7 m c) (A8 m c) :=
  NodeProj.final (V1 m ρ) c (A0 m c) (A7 m c) (A8 m c) (V1_arg0 m ρ c) (V1_arg7 m ρ c) (V1_v4 m ρ c)

/-- The message array the second call leaves is the reference's: gathered rows times weights. -/
theorem msg_eq (c : Dev nD)
    (hr : ∀ e : S640000.Idx, -40000 ≤ (colVec m c e).toInt ∧ (colVec m c e).toInt < 40000) :
    (dat1 (V4 m ρ) c).arrAt 6 cfg1.N
      = Cert.ReferenceIdeal.Read.val_main_v25 (F := Ideal) (A0 m c) (A1 m c) (A2 m c) (A3 m c) (A4 m c) (A5 m c) (A6 m c) (A7 m c) (A8 m c) := by
  rw [Filter.final (V4 m ρ) c (A2 m c) (A3 m c) (A4 m c) (A5 m c) (A6 m c) _
    (V4_arg2 m ρ c) (V4_v6 m ρ c) (V4_arg3 m ρ c) (V4_v7 m ρ c) (V4_arg5 m ρ c) (V4_v8 m ρ c),
    Take.take_eq_gather _ _ hr, proj_eq]
  rfl

/-- THE RESULT of the kernel program is the reference's last stage of the launch arrays. -/
theorem result_eq (c : Dev nD)
    (hr : ∀ e : S640000.Idx, -40000 ≤ (colVec m c e).toInt ∧ (colVec m c e).toInt < 40000) :
    W6 m ρ c (Proc.devRef .tc main_v12)
      = Cert.ReferenceIdeal.Read.val_main_v28 (F := Ideal) (A0 m c) (A1 m c) (A2 m c) (A3 m c) (A4 m c) (A5 m c) (A6 m c) (A7 m c) (A8 m c) := by
  rw [W6_v12, msg_eq m ρ c hr]
  rfl

end Cert.KernelIdeal.KValue

end
-- ==== Proof.lean ====
/-
  Continuous-filter convolution on a graph: messages `h[col] * weight` summed onto their destination rows.

  Both programs compute, over the extended reals,
    `h = x @ Wl + bl`,  `weight = max (rbf @ W1 + b1, 0) @ W2 + b2`,  `out = segment_sum (h[col] * weight, row)`.
  The kernel program computes `h` and `weight * h[col]` in two pallas_calls over row blocks of 8000 (each matrix
  product accumulated from zero, a change of float format the identity at the ideal instance) and leaves the
  gather and the scatter-add to the host; a block's element is the same sum as the whole array's element, the
  blocks tile their arrays, and the product of extended reals commutes.
  The one place the two programs differ is the gather of an out-of-range source index: the kernel's gather fills
  such a row, the reference's clamps the index. The precondition keeps every source index in [-40000, 40000)
  (the range the reference itself indexes in range, a negative index counted from the end); there the wrapped
  index lies in [0, 39999], the kernel's range mask is all ones, and both gathers read the same rows.
  No finiteness is used: only commutativity of the product, and equal sums term by term.
-/
import proofs.«403626_j46342697124299_3_alg».proof.Defs
import proofs.«403626_j46342697124299_3_alg».proof.Proof.Gen.Kernel
import proofs.«403626_j46342697124299_3_alg».proof.Proof.Gen.Kernel.Skeleton
import proofs.«403626_j46342697124299_3_alg».proof.Proof.Gen.Kernel.Launch
import proofs.«403626_j46342697124299_3_alg».proof.Proof.Gen.Kernel.Points
import proofs.«403626_j46342697124299_3_alg».proof.Proof.Gen.Kernel.Frame
import proofs.«403626_j46342697124299_3_alg».proof.Proof.Gen.KernelIdeal
import proofs.«403626_j46342697124299_3_alg».proof.Proof.Gen.KernelIdeal.Skeleton
import proofs.«403626_j46342697124299_3_alg».proof.Proof.Gen.KernelIdeal.Launch
import proofs.«403626_j46342697124299_3_alg».proof.Proof.Gen.KernelIdeal.Points
import proofs.«403626_j46342697124299_3_alg».proof.Proof.Gen.KernelIdeal.Frame
import proofs.«403626_j46342697124299_3_alg».proof.Proof.Gen.ReferenceIdeal
import proofs.«403626_j46342697124299_3_alg».proof.Proof.Gen.ReferenceIdeal.Run
import proofs.«403626_j46342697124299_3_alg».proof.Proof.Gen.ReferenceIdeal.Read
import proofs.«403626_j46342697124299_3_alg».proof.Proof.Gen.Pre_finite_inputs
import proofs.«403626_j46342697124299_3_alg».proof.Proof.KRun
import proofs.«403626_j46342697124299_3_alg».proof.Proof.KValue
import proofs.«403626_j46342697124299_3_alg».proof.Proof.PreRange
import Idealize.ShloMosaic.Adequacy
import Idealize.ShloMosaic.Init

noncomputable section

namespace Cert.Proof

open Idealize.ShloMosaic Idealize.ShloMosaic.TcCoe Idealize.SL.Sem

/-- Under the precondition every source index of every device lies in [-40000, 40000). -/
theorem col_in_range (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) (e : Cert.KernelIdeal.S640000.Idx) :
    -40000 ≤ (Cert.KernelIdeal.Host.colVec m c e).toInt ∧ (Cert.KernelIdeal.Host.colVec m c e).toInt < 40000 :=
  Cert.PreRange.col_range _ _ _ _ _ _ _ _ _ (hpre c) e

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the reference's last stage of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Read.val_main_v28 (F := Ideal) (Cert.KernelIdeal.KValue.A0 m c) (Cert.KernelIdeal.KValue.A1 m c)
    (Cert.KernelIdeal.KValue.A2 m c) (Cert.KernelIdeal.KValue.A3 m c) (Cert.KernelIdeal.KValue.A4 m c) (Cert.KernelIdeal.KValue.A5 m c)
    (Cert.KernelIdeal.KValue.A6 m c) (Cert.KernelIdeal.KValue.A7 m c) (Cert.KernelIdeal.KValue.A8 m c), ?_, ?_⟩
  · exact (θ_run Cert.KernelIdeal.defs _ _).mono
      (fun r h c => ⟨(h c).1.trans (Cert.KernelIdeal.KValue.result_eq m ρ c (col_in_range m hpre c)), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq]
    obtain ⟨h0, h1, h2, h3, h4, h5, h6, h7, h8⟩ := hagree c
    rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
